-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x288 : Shape := ⟨2, ![96, 288]⟩
abbrev S288x32 : Shape := ⟨2, ![288, 32]⟩
abbrev S32 : Shape := ⟨1, ![32]⟩
abbrev S32x96 : Shape := ⟨2, ![32, 96]⟩
abbrev S96 : Shape := ⟨1, ![96]⟩
abbrev S2x800000 : Shape := ⟨2, ![2, 800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x288 : S_.BroadcastsInDim S96x288 (![] : Fin 0 → Fin S96x288.rank)
  reducesTo_S96x288_S_d0_1 : S96x288.ReducesTo [0, 1] S_
  bcast_S_S288x32 : S_.BroadcastsInDim S288x32 (![] : Fin 0 → Fin S288x32.rank)
  reducesTo_S288x32_S_d0_1 : S288x32.ReducesTo [0, 1] S_
  bcast_S_S32 : S_.BroadcastsInDim S32 (![] : Fin 0 → Fin S32.rank)
  reducesTo_S32_S_d0 : S32.ReducesTo [0] S_
  bcast_S_S32x96 : S_.BroadcastsInDim S32x96 (![] : Fin 0 → Fin S32x96.rank)
  reducesTo_S32x96_S_d0_1 : S32x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S32x96 .f32) (main_arg5 : FVec F S96 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x96 .f32 := Host.absf main_arg4
  let main_cst_6 : FVec F S_ .f32 := constant S_ .f32 0x7F800000#32
  let main_v20 : FVec F S32x96 .f32 := broadcastInDim S32x96 ![] bcast_S_S32x96 main_cst_6
  let main_v21 : IVec S32x96 1 := cmpf .olt main_v19 main_v20
  let main_c_7 : IVec S_ 1 := constantI S_ 1 1#1
  let main_v22 : IVec S_ 1 := (fun x v => Host.reduce IntOp.andi x v reducesTo_S32x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S50000x96 .f32) (main_arg1 : FVec F S96x288 .f32) (main_arg2 : FVec F S288x32 .f32) (main_arg3 : FVec F S32 .f32) (main_arg4 : FVec F S32x96 .f32) (main_arg5 : FVec F S96 .f32) (main_arg6 : IVec S2x800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x288 .f32 := Host.absf main_arg1
  let main_cst_0 : FVec F S_ .f32 := constant S_ .f32 0x7F800000#32
  let main_v5 : FVec F S96x288 .f32 := broadcastInDim S96x288 ![] bcast_S_S96x288 main_cst_0
  let main_v6 : IVec S96x288 1 := cmpf .olt main_v4 main_v5
  let main_c_1 : IVec S_ 1 := constantI S_ 1 1#1
  let main_v7 : IVec S_ 1 := (fun x v => Host.reduce IntOp.andi x v reducesTo_S96x288_S_d0_1 h_S_) main_v6 main_c_1
  let main_v8 : IVec S_ 1 := andi main_v3 main_v7
  let main_v9 : FVec F S288x32 .f32 := Host.absf main_arg2
  let main_cst_2 : FVec F S_ .f32 := constant S_ .f32 0x7F800000#32
  let main_v10 : FVec F S288x32 .f32 := broadcastInDim S288x32 ![] bcast_S_S288x32 main_cst_2
  let main_v11 : IVec S288x32 1 := cmpf .olt main_v9 main_v10
  let main_c_3 : IVec S_ 1 := constantI S_ 1 1#1
  let main_v12 : IVec S_ 1 := (fun x v => Host.reduce IntOp.andi x v reducesTo_S288x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S50000x96 : Shape := ⟨2, ![50000, 96]⟩
abbrev S96x288 : Shape := ⟨2, ![96, 288]⟩
abbrev S288x32 : Shape := ⟨2, ![288, 32]⟩
abbrev S32 : Shape := ⟨1, ![32]⟩
abbrev S32x96 : Shape := ⟨2, ![32, 96]⟩
abbrev S96 : Shape := ⟨1, ![96]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x288 : Shape := ⟨2, ![50000, 288]⟩
abbrev S5000x96 : Shape := ⟨2, ![5000, 96]⟩
abbrev S5000x288 : Shape := ⟨2, ![5000, 288]⟩
abbrev S850000x288 : Shape := ⟨2, ![850000, 288]⟩
abbrev S5000x32 : Shape := ⟨2, ![5000, 32]⟩
abbrev S1x32 : Shape := ⟨2, ![1, 32]⟩
abbrev S1x96 : Shape := ⟨2, ![1, 96]⟩

abbrev nBuf : Space → Nat
  | .hbm => 65
  | .vmem => 15
  | .smem => 0
  | _ => 0

abbrev bufTy : (tb : Table) → Fin (tcTables nBuf tb) → BufTy
  | .hbm, ⟨0, _⟩ => ⟨S50000x96, .f32⟩
  | .hbm, ⟨1, _⟩ => ⟨S96x288, .f32⟩
  | .hbm, ⟨2, _⟩ => ⟨S288x32, .f32⟩
  | .hbm, ⟨3, _⟩ => ⟨S32, .f32⟩
  | .hbm, ⟨4, _⟩ => ⟨S32x96, .f32⟩
  | .hbm, ⟨5, _⟩ => ⟨S96, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x288, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x288, .f32⟩
  | .hbm, ⟨57, _⟩ => ⟨S850000x1, .f32⟩
  | .hbm, ⟨58, _⟩ => ⟨S850000x288, .f32⟩
  | .hbm, ⟨59, _⟩ => ⟨S850000x288, .f32⟩
  | .hbm, ⟨60, _⟩ => ⟨S_, .f32⟩
  | .hbm, ⟨61, _⟩ => ⟨S50000x288, .f32⟩
  | .hbm, ⟨62, _⟩ => ⟨S850000x1, .i32⟩
  | .hbm, ⟨63, _⟩ => ⟨S50000x288, .f32⟩
  | .hbm, ⟨64, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x288, .f32⟩
  | .local _ .vmem, ⟨3, _⟩ => ⟨S5000x288, .f32⟩
  | .local _ .vmem, ⟨4, _⟩ => ⟨S5000x288, .f32⟩
  | .local _ .vmem, ⟨5, _⟩ => ⟨S5000x288, .f32⟩
  | .local _ .vmem, ⟨6, _⟩ => ⟨S5000x288, .f32⟩
  | .local _ .vmem, ⟨7, _⟩ => ⟨S5000x96, .f32⟩
  | .local _ .vmem, ⟨8, _⟩ => ⟨S5000x96, .f32⟩
  | .local _ .vmem, ⟨9, _⟩ => ⟨S288x32, .f32⟩
  | .local _ .vmem, ⟨10, _⟩ => ⟨S32, .f32⟩
  | .local _ .vmem, ⟨11, _⟩ => ⟨S32x96, .f32⟩
  | .local _ .vmem, ⟨12, _⟩ => ⟨S96, .f32⟩
  | .local _ .vmem, ⟨13, _⟩ => ⟨S5000x96, .f32⟩
  | .local _ .vmem, ⟨14, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S288x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x288_S96x288_0_0 : ∀ a, (![0, 0] : Fin 2 → Nat) a + S96x288.size a ≤ S96x288.size a
  h_S96x288 : 0 < S96x288.numel
  inb_S5000x288_S5000x288_0_0 : ∀ a, (![0, 0] : Fin 2 → Nat) a + S5000x288.size a ≤ S5000x288.size a
  h_S5000x288 : 0 < S5000x288.numel
  bcast_S850000x1_S850000x288_0_1 : S850000x1.BroadcastsInDim S850000x288 (![0, 1] : Fin 2 → Fin S850000x288.rank)
  bcast_S_S50000x288 : S_.BroadcastsInDim S50000x288 (![] : Fin 0 → Fin S50000x288.rank)
  shapeCasts_S5000x288_S5000x288 : S5000x288.ShapeCasts S5000x288
  inb_S288x32_S288x32_0_0 : ∀ a, (![0, 0] : Fin 2 → Nat) a + S288x32.size a ≤ S288x32.size a
  h_S288x32 : 0 < S288x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x96_S32x96_0_0 : ∀ a, (![0, 0] : Fin 2 → Nat) a + S32x96.size a ≤ S32x96.size a
  h_S32x96 : 0 < S32x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x96_S96x288_S5000x288_1_0_0_1_n_n_wf : DotDims.WF S5000x96 S96x288 S5000x288 [1] [0] [0] [1] [] []
  gather_S50000x288_S850000x1_S850000x288_1_0_n_n_0_1_1288_wf : GatherDims.WF S50000x288 S850000x1 S850000x288 [1] [0] [] [0] [] 1 ![1, 288]
  scatter_S50000x288_S850000x1_S850000x288_1_0_0_1_wf : ScatterDims.WF S50000x288 S850000x1 S850000x288 [1] [0] [0] 1
  dot_S5000x288_S288x32_S5000x32_1_0_0_1_n_n_wf : DotDims.WF S5000x288 S288x32 S5000x32 [1] [0] [0] [1] [] []
  dot_S5000x32_S32x96_S5000x96_1_0_0_1_n_n_wf : DotDims.WF S5000x32 S32x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x288.size a ≤ S96x288.size a
  hwx0_1 : ∀ i : grid0.Coords, EltTy.bits .f32 = 32 ∨ (Rect.block (s := S96x288) S96x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x288.size a ≤ S50000x288.size a
  hwx0_2 : ∀ i : grid0.Coords, EltTy.bits .f32 = 32 ∨ (Rect.block (s := S50000x288) S5000x288.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x288.size a ≤ S50000x288.size a
  hwx1_0 : ∀ i : grid1.Coords, EltTy.bits .f32 = 32 ∨ (Rect.block (s := S50000x288) S5000x288.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S288x32.size a ≤ S288x32.size a
  hwx1_2 : ∀ i : grid1.Coords, EltTy.bits .f32 = 32 ∨ (Rect.block (s := S288x32) S288x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x96.size a ≤ S32x96.size a
  hwx1_4 : ∀ i : grid1.Coords, EltTy.bits .f32 = 32 ∨ (Rect.block (s := S32x96) S32x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96.size a ≤ S96.size a
  hwx1_5 : ∀ i : grid1.Coords, EltTy.bits .f32 = 32 ∨ (Rect.block (s := S96) S96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x96_S96x288_S5000x288_1_0_0_1_n_n : DotDims S5000x96 S96x288 S5000x288 where
  lhsContracting := [1]
  rhsContracting := [0]
  lhsNonContracting := [0]
  rhsNonContracting := [1]
  lhsBatch := []
  rhsBatch := []
  wf := dot_S5000x96_S96x288_S5000x288_1_0_0_1_n_n_wf
def gather_S50000x288_S850000x1_S850000x288_1_0_n_n_0_1_1288 : GatherDims S50000x288 S850000x1 S850000x288 where
  offsetDims := [1]
  collapsedSliceDims := [0]
  operandBatchingDims := []
  startIndicesBatchingDims := []
  startIndexMap := [0]
  indexVectorDim := 1
  sliceSizes := ![1, 288]
  wf := gather_S50000x288_S850000x1_S850000x288_1_0_n_n_0_1_1288_wf
def scatter_S50000x288_S850000x1_S850000x288_1_0_0_1 : ScatterDims S50000x288 S850000x1 S850000x288 where
  updateWindowDims := [1]
  insertedWindowDims := [0]
  scatterDimsToOperandDims := [0]
  indexVectorDim := 1
  wf := scatter_S50000x288_S850000x1_S850000x288_1_0_0_1_wf
def dot_S5000x288_S288x32_S5000x32_1_0_0_1_n_n : DotDims S5000x288 S288x32 S5000x32 where
  lhsContracting := [1]
  rhsContracting := [0]
  lhsNonContracting := [0]
  rhsNonContracting := [1]
  lhsBatch := []
  rhsBatch := []
  wf := dot_S5000x288_S288x32_S5000x32_1_0_0_1_n_n_wf
def dot_S5000x32_S32x96_S5000x96_1_0_0_1_n_n : DotDims S5000x32 S32x96 S5000x96 where
  lhsContracting := [1]
  rhsContracting := [0]
  lhsNonContracting := [0]
  rhsNonContracting := [1]
  lhsBatch := []
  rhsBatch := []
  wf := dot_S5000x32_S32x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S288x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S32x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S96x288 : Shape := ⟨2, ![96, 288]⟩
abbrev S288x32 : Shape := ⟨2, ![288, 32]⟩
abbrev S32 : Shape := ⟨1, ![32]⟩
abbrev S32x96 : Shape := ⟨2, ![32, 96]⟩
abbrev S96 : Shape := ⟨1, ![96]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x288 : Shape := ⟨2, ![50000, 288]⟩
abbrev S850000x288 : Shape := ⟨2, ![850000, 288]⟩
abbrev S50000x32 : Shape := ⟨2, ![50000, 32]⟩
abbrev S1x32 : Shape := ⟨2, ![1, 32]⟩
abbrev S1x96 : Shape := ⟨2, ![1, 96]⟩

abbrev nBuf : Space → Nat
  | .hbm => 76
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x288, .f32⟩
  | .hbm, ⟨2, _⟩ => ⟨S288x32, .f32⟩
  | .hbm, ⟨3, _⟩ => ⟨S32, .f32⟩
  | .hbm, ⟨4, _⟩ => ⟨S32x96, .f32⟩
  | .hbm, ⟨5, _⟩ => ⟨S96, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x288, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x288, .f32⟩
  | .hbm, ⟨57, _⟩ => ⟨S850000x1, .f32⟩
  | .hbm, ⟨58, _⟩ => ⟨S850000x288, .f32⟩
  | .hbm, ⟨59, _⟩ => ⟨S850000x288, .f32⟩
  | .hbm, ⟨60, _⟩ => ⟨S_, .f32⟩
  | .hbm, ⟨61, _⟩ => ⟨S50000x288, .f32⟩
  | .hbm, ⟨62, _⟩ => ⟨S850000x1, .i32⟩
  | .hbm, ⟨63, _⟩ => ⟨S50000x288, .f32⟩
  | .hbm, ⟨64, _⟩ => ⟨S50000x32, .f32⟩
  | .hbm, ⟨65, _⟩ => ⟨S1x32, .f32⟩
  | .hbm, ⟨66, _⟩ => ⟨S50000x32, .f32⟩
  | .hbm, ⟨67, _⟩ => ⟨S50000x32, .f32⟩
  | .hbm, ⟨68, _⟩ => ⟨S_, .f32⟩
  | .hbm, ⟨69, _⟩ => ⟨S50000x32, .f32⟩
  | .hbm, ⟨70, _⟩ => ⟨S50000x32, .f32⟩
  | .hbm, ⟨71, _⟩ => ⟨S50000x96, .f32⟩
  | .hbm, ⟨72, _⟩ => ⟨S1x96, .f32⟩
  | .hbm, ⟨73, _⟩ => ⟨S50000x96, .f32⟩
  | .hbm, ⟨74, _⟩ => ⟨S50000x96, .f32⟩
  | .hbm, ⟨75, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x288_0_1 : S850000x1.BroadcastsInDim S850000x288 (![0, 1] : Fin 2 → Fin S850000x288.rank)
  bcast_S_S50000x288 : S_.BroadcastsInDim S50000x288 (![] : Fin 0 → Fin S50000x288.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x288_S50000x288_1_0_0_1_n_n_wf : DotDims.WF S50000x96 S96x288 S50000x288 [1] [0] [0] [1] [] []
  gather_S50000x288_S850000x1_S850000x288_1_0_n_n_0_1_1288_wf : GatherDims.WF S50000x288 S850000x1 S850000x288 [1] [0] [] [0] [] 1 ![1, 288]
  scatter_S50000x288_S850000x1_S850000x288_1_0_0_1_wf : ScatterDims.WF S50000x288 S850000x1 S850000x288 [1] [0] [0] 1
  dot_S50000x288_S288x32_S50000x32_1_0_0_1_n_n_wf : DotDims.WF S50000x288 S288x32 S50000x32 [1] [0] [0] [1] [] []
  dot_S50000x32_S32x96_S50000x96_1_0_0_1_n_n_wf : DotDims.WF S50000x32 S32x96 S50000x96 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x288_S50000x288_1_0_0_1_n_n : DotDims S50000x96 S96x288 S50000x288 where
  lhsContracting := [1]
  rhsContracting := [0]
  lhsNonContracting := [0]
  rhsNonContracting := [1]
  lhsBatch := []
  rhsBatch := []
  wf := dot_S50000x96_S96x288_S50000x288_1_0_0_1_n_n_wf
def gather_S50000x288_S850000x1_S850000x288_1_0_n_n_0_1_1288 : GatherDims S50000x288 S850000x1 S850000x288 where
  offsetDims := [1]
  collapsedSliceDims := [0]
  operandBatchingDims := []
  startIndicesBatchingDims := []
  startIndexMap := [0]
  indexVectorDim := 1
  sliceSizes := ![1, 288]
  wf := gather_S50000x288_S850000x1_S850000x288_1_0_n_n_0_1_1288_wf
def scatter_S50000x288_S850000x1_S850000x288_1_0_0_1 : ScatterDims S50000x288 S850000x1 S850000x288 where
  updateWindowDims := [1]
  insertedWindowDims := [0]
  scatterDimsToOperandDims := [0]
  indexVectorDim := 1
  wf := scatter_S50000x288_S850000x1_S850000x288_1_0_0_1_wf
def dot_S50000x288_S288x32_S50000x32_1_0_0_1_n_n : DotDims S50000x288 S288x32 S50000x32 where
  lhsContracting := [1]
  rhsContracting := [0]
  lhsNonContracting := [0]
  rhsNonContracting := [1]
  lhsBatch := []
  rhsBatch := []
  wf := dot_S50000x288_S288x32_S50000x32_1_0_0_1_n_n_wf
def dot_S50000x32_S32x96_S50000x96_1_0_0_1_n_n : DotDims S50000x32 S32x96 S50000x96 where
  lhsContracting := [1]
  rhsContracting := [0]
  lhsNonContracting := [0]
  rhsNonContracting := [1]
  lhsBatch := []
  rhsBatch := []
  wf := dot_S50000x32_S32x96_S50000x96_1_0_0_1_n_n_wf

class Facts : Prop extends Facts₀ where

variable [Facts]
-- ==== Proof.Spec.lean ====
import proofs.«156920_j28183575396996_1_alg».proof.Proof.Gen.KernelIdeal
import Idealize.ShloMosaic.Lib.ValueIdx
import Idealize.ShloMosaic.PureOps.Ideal.Laws

/-!
# What the program computes, as functions of its argument arrays

One graph-convolution step on 50000 nodes with 96 channels and 800000 edges, followed by a two-layer
perceptron with a residual connection.

* `proj x w` is the dense projection `x · w` (96 → 288 channels), entry by entry a sum over the 96 input
  channels.
* `srcIds e`, `dstIds e` are the edge list's source and destination node ids with one self loop per node
  appended (850000 entries); `normOf e` is the symmetric normalisation `d(src)^(-1/2) · d(dst)^(-1/2)` of each
  entry, `d` the in-degree counted with the self loops (and `0` in place of `d^(-1/2)` where `d` is not positive).
* `aggOf h src dst nrm` sums, into each destination node's row, the source nodes' rows of `h` scaled by
  `nrm`: a gather, a product and a scatter-add. Both programs apply this same chain, so it is kept as ONE
  function and never opened: all that is ever used of it is that equal inputs give equal outputs.
* `hidden feat w1 b1` is `max (feat · w1 + b1) 0` (288 → 32 channels) and `upd feat x w1 b1 w2 b2` is
  `x + (hidden · w2 + b2)` (32 → 96 channels), both entry by entry over the extended reals.
-/

noncomputable section

namespace Cert.Spec

open Idealize.ShloMosaic Cert.KernelIdeal Cert.KernelIdeal.Facts₀ Cert.KernelIdeal.Facts

/-- The hidden layer's shape: one row per node, 32 channels. -/
abbrev S50000x32 : Shape := ⟨2, ![50000, 32]⟩

/-! ## Indices -/

/-- The index (row of `i`, `k`): the left operand's entry that meets contraction coordinate `k` at output entry `i`. -/
abbrev rowK {R C K : Nat} (i : (⟨2, ![R, C]⟩ : Shape).Idx) (k : Fin K) : (⟨2, ![R, K]⟩ : Shape).Idx := fun a => match a with
  | ⟨0, _⟩ => ⟨(i 0).val, (i 0).isLt⟩
  | ⟨1, _⟩ => ⟨k.val, k.isLt⟩

/-- The index (`k`, column of `i`): the right operand's entry that meets contraction coordinate `k` at output entry `i`. -/
abbrev kCol {R C K : Nat} (i : (⟨2, ![R, C]⟩ : Shape).Idx) (k : Fin K) : (⟨2, ![K, C]⟩ : Shape).Idx := fun a => match a with
  | ⟨0, _⟩ => ⟨k.val, k.isLt⟩
  | ⟨1, _⟩ => ⟨(i 1).val, (i 1).isLt⟩

/-- The column of `i` as an index of a vector along the columns (a bias read at an entry's column). -/
abbrev colOf {R C : Nat} (i : (⟨2, ![R, C]⟩ : Shape).Idx) : (⟨1, ![C]⟩ : Shape).Idx := fun a => match a with
  | ⟨0, _⟩ => ⟨(i 1).val, (i 1).isLt⟩

/-! ## The dense stages, entry by entry over the extended reals -/

/-- `x · w`: entry (r, j) is the sum over the 96 input channels `k` of `x (r, k) · w (k, j)`. -/
def proj (x : S50000x96.Idx → EReal) (w : S96x288.Idx → EReal) : S50000x288.Idx → EReal :=
  fun i => ∑ k : Fin 96, x (rowK i k) * w (kCol i k)

/-- The hidden layer: entry (r, k) is `max (∑ j, feat (r, j) · w1 (j, k) + b1 k) 0`. -/
def hidden (feat : S50000x288.Idx → EReal) (w1 : S288x32.Idx → EReal) (b1 : S32.Idx → EReal) : S50000x32.Idx → EReal :=
  fun i => max ((∑ j : Fin 288, feat (rowK i j) * w1 (kCol i j)) + b1 (colOf i)) 0

/-- The update with its residual: entry (r, q) is `x (r, q) + (∑ k, hidden (r, k) · w2 (k, q) + b2 q)`. -/
def upd (feat : S50000x288.Idx → EReal) (x : S50000x96.Idx → EReal) (w1 : S288x32.Idx → EReal) (b1 : S32.Idx → EReal)
    (w2 : S32x96.Idx → EReal) (b2 : S96.Idx → EReal) : S50000x96.Idx → EReal :=
  fun i => x i + ((∑ k : Fin 32, hidden feat w1 b1 (rowK i k) * w2 (kCol i k)) + b2 (colOf i))

/-! ## The sparse stages, for any float family: compositions of the host's own operations -/

section Sparse
variable {F : FTy → Type} [FloatOps F]

/-- A vector of node ids as a column of gather or scatter indices, a negative id first moved up by the node count. -/
def wrapCol (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Row `r` of the edge list, followed by the node ids 0 … 49999 (the self loops). -/
def idsOf (r : Nat) (h : S2x800000.Slices ![r, 0] S1x800000) (e : (⟨S2x800000, .i32⟩ : BufTy).Contents (Elt F)) :
    (⟨S850000, .i32⟩ : BufTy).Contents (Elt F) :=
  concatenate S850000 0 [⟨S800000, shapeCast S800000 (extractStridedSlice S1x800000 ![r, 0] e h) shapeCasts_S1x800000_S800000⟩,
    ⟨S50000, iotaInDim S50000 32 0⟩] concatenates_S800000_S50000_S850000_d0

/-- The source node of every edge and self loop. -/
def srcIds (e : (⟨S2x800000, .i32⟩ : BufTy).Contents (Elt F)) : (⟨S850000, .i32⟩ : BufTy).Contents (Elt F) :=
  idsOf 0 slices_S2x800000_S1x800000_0_0 e

/-- The destination node of every edge and self loop. -/
def dstIds (e : (⟨S2x800000, .i32⟩ : BufTy).Contents (Elt F)) : (⟨S850000, .i32⟩ : BufTy).Contents (Elt F) :=
  idsOf 1 slices_S2x800000_S1x800000_1_0 e

/-- Each node's in-degree, self loop included: ones scattered onto the destinations. -/
def degOf (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (dstIds e))
    (broadcastInDim S850000 ![] bcast_S_S850000 (constant S_ .f32 0x3F800000#32))

/-- `d^(-1/2)` where the degree `d` is positive and `0` elsewhere. -/
def dinvOf (e : (⟨S2x800000, .i32⟩ : BufTy).Contents (Elt F)) : (⟨S50000, .f32⟩ : BufTy).Contents (Elt F) :=
  select (cmpf (F := F) .ogt (degOf e) (broadcastInDim S50000 ![] bcast_S_S50000 (constant S_ .f32 0x00000000#32)))
    (Host.rsqrt (degOf e))
    (broadcastInDim S50000 ![] bcast_S_S50000 (id (constant S_ .f32 0x00000000#32)))

/-- The symmetric normalisation of every edge and self loop: `d(src)^(-1/2) · d(dst)^(-1/2)`. -/
def normOf (e : (⟨S2x800000, .i32⟩ : BufTy).Contents (Elt F)) : (⟨S850000, .f32⟩ : BufTy).Contents (Elt F) :=
  mulf (Host.gather gather_S50000_S850000x1_S850000_n_0_n_n_0_1_1 (dinvOf e) (wrapCol (srcIds e)))
    (Host.gather gather_S50000_S850000x1_S850000_n_0_n_n_0_1_1 (dinvOf e) (wrapCol (dstIds e)))

/-- Message passing: the rows of `h` at the sources, scaled by `nrm`, summed into the destinations' rows. -/
def aggOf (h : (⟨S50000x288, .f32⟩ : BufTy).Contents (Elt F)) (src dst : (⟨S850000, .i32⟩ : BufTy).Contents (Elt F))
    (nrm : (⟨S850000, .f32⟩ : BufTy).Contents (Elt F)) : (⟨S50000x288, .f32⟩ : BufTy).Contents (Elt F) :=
  Host.scatterAdd scatter_S50000x288_S850000x1_S850000x288_1_0_0_1
    (broadcastInDim S50000x288 ![] bcast_S_S50000x288 (constant S_ .f32 0x00000000#32))
    (broadcastInDim S850000x1 ![0] bcast_S850000_S850000x1_0 dst)
    (mulf (Host.gather gather_S50000x288_S850000x1_S850000x288_1_0_n_n_0_1_1288 h (wrapCol src))
      (broadcastInDim S850000x288 ![0, 1] bcast_S850000x1_S850000x288_0_1
        (broadcastInDim S850000x1 ![0] bcast_S850000_S850000x1_0 nrm)))

end Sparse

end Cert.Spec

end
-- ==== Proof.Region0.lean ====
import proofs.«156920_j28183575396996_1_alg».proof.Proof.Gen.KernelIdeal.Frame
import proofs.«156920_j28183575396996_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-! ## The body's arithmetic at one entry of a block

The body multiplies its 5000 × 96 block of `x` by the whole 96 × 288 matrix `w` into a zero accumulator; the
format changes in front of the product are the identity over the extended reals. So entry (p, q) of what it stores
is the sum over the 96 input channels `k` of `x (p, k) * w (k, q)`. -/

/-- The left operand's row coordinate at output entry `i` is `i`'s row (axis 0 is not contracted). -/
theorem lhs_row (i : S5000x288.Idx) (q : dot_S5000x96_S96x288_S5000x288_1_0_0_1_n_n.contr.Idx) :
    (dot_S5000x96_S96x288_S5000x288_1_0_0_1_n_n.lhsIdx i q 0).val = (i 0).val := by
  unfold DotDims.lhsIdx
  rw [dif_neg (show ¬(0 : Fin S5000x96.rank) ∈ dot_S5000x96_S96x288_S5000x288_1_0_0_1_n_n.lhsBatch by decide), dif_pos (show (0 : Fin S5000x96.rank) ∈ dot_S5000x96_S96x288_S5000x288_1_0_0_1_n_n.lhsNonContracting by decide)]
  rfl
/-- The left operand's column coordinate is the contraction coordinate. -/
theorem lhs_col (i : S5000x288.Idx) (q : dot_S5000x96_S96x288_S5000x288_1_0_0_1_n_n.contr.Idx) :
    (dot_S5000x96_S96x288_S5000x288_1_0_0_1_n_n.lhsIdx i q 1).val = (q ⟨0, by decide⟩).val :=
  dot_S5000x96_S96x288_S5000x288_1_0_0_1_n_n.lhsIdx_val_of_single rfl i q
/-- The right operand's row coordinate is the contraction coordinate. -/
theorem rhs_row (i : S5000x288.Idx) (q : dot_S5000x96_S96x288_S5000x288_1_0_0_1_n_n.contr.Idx) :
    (dot_S5000x96_S96x288_S5000x288_1_0_0_1_n_n.rhsIdx i q 0).val = (q ⟨0, by decide⟩).val :=
  dot_S5000x96_S96x288_S5000x288_1_0_0_1_n_n.rhsIdx_val_of_single rfl i q
/-- The right operand's column coordinate at output entry `i` is `i`'s column (axis 1 is not contracted). -/
theorem rhs_col (i : S5000x288.Idx) (q : dot_S5000x96_S96x288_S5000x288_1_0_0_1_n_n.contr.Idx) :
    (dot_S5000x96_S96x288_S5000x288_1_0_0_1_n_n.rhsIdx i q 1).val = (i 1).val := by
  unfold DotDims.rhsIdx
  rw [dif_neg (show ¬(1 : Fin S96x288.rank) ∈ dot_S5000x96_S96x288_S5000x288_1_0_0_1_n_n.rhsBatch by decide), dif_pos (show (1 : Fin S96x288.rank) ∈ dot_S5000x96_S96x288_S5000x288_1_0_0_1_n_n.rhsNonContracting by decide)]
  rfl

/-- Entry (p, q) of the block the body stores: the sum over the input channels of the products. -/
theorem pay_apply (x0 : Vec Ideal S5000x96 .f32) (x1 : Vec Ideal S96x288 .f32) (p : Fin 5000) (q : Fin 288) :
    k0_pay1 x0 x1 (ix2 p q) = ∑ k : Fin 96, x0 (ix2 p k) * x1 (ix2 k q) := by
  unfold k0_pay1
  simp only [matmul]
  rw [Ideal.matmul_constant_zero_apply, ← Equiv.sum_comp (ValueIdx.contrEquiv1 dot_S5000x96_S96x288_S5000x288_1_0_0_1_n_n 96 rfl rfl).symm]
  refine Finset.sum_congr rfl fun k _ => ?_
  have hk := ValueIdx.contrEquiv1_symm_val dot_S5000x96_S96x288_S5000x288_1_0_0_1_n_n 96 rfl rfl k
  have el : dot_S5000x96_S96x288_S5000x288_1_0_0_1_n_n.lhsIdx (ix2 p q) ((ValueIdx.contrEquiv1 dot_S5000x96_S96x288_S5000x288_1_0_0_1_n_n 96 rfl rfl).symm k) = ix2 p k := funext fun a => Fin.ext (by
    match a with
    | ⟨0, _⟩ => exact lhs_row _ _
    | ⟨1, _⟩ => exact (lhs_col _ _).trans hk)
  have er : dot_S5000x96_S96x288_S5000x288_1_0_0_1_n_n.rhsIdx (ix2 p q) ((ValueIdx.contrEquiv1 dot_S5000x96_S96x288_S5000x288_1_0_0_1_n_n 96 rfl rfl).symm k) = ix2 k q := funext fun a => Fin.ext (by
    match a with
    | ⟨0, _⟩ => exact (rhs_row _ _).trans hk
    | ⟨1, _⟩ => exact rhs_col _ _)
  rw [el, er]
  rfl

variable (V : (c : Dev nD) → (b : Ref sig .tc) → Buf (Elt Ideal) ((c : Thread nD τ).loc b))

/-! ## From the blocks to the array

Point `t` of the grid reads block `t` of `x` (5000 rows, all 96 columns) and the whole of `w`, and writes block `t`
of the output (the same 5000 rows, all 288 columns). The ten blocks of rows tile the 50000 rows. -/

/-- The body's accesses start at the origin of their buffers. -/
theorem origin : (![0, 0] : Fin 2 → Nat) = fun _ => 0 := funext fun a => by fin_cases a <;> rfl

/-- The index maps, decided over the ten points: the block of `x` moves with the output's block along the rows and
    stays at column block 0; the block of `w` is always block (0, 0); the output's block stays at column block 0 and
    its row block is at most 9. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of `x · w`: at entry (p, q) of the block, row `index × 5000 + p` of `x`
    against column `q` of `w`. -/
theorem flushed_eq (c : Dev nD) (t : Fin cfg0.N) :
    (dat0 (F := Ideal) V c).flushed 2 t
      = ((cfg0.win 2).blk t).view.read (Elt Ideal) (Cert.Spec.proj (V c main_arg0) (V c main_arg1)) := by
  show (cfg0.win 2).cut (grid0.coords t) ((dat0 V c).after 2 t) = _
  rw [after0_2]
  unfold out0_2
  rw [View.canon_unit_zero origin]
  simp only [View.ld_unit_zero (S := S5000x96) origin, View.ld_unit_zero (S := S96x288) origin]
  obtain ⟨e0, e1, e2, e3, e4, e5⟩ := index_maps t
  funext j
  obtain ⟨p, q, rfl⟩ : ∃ (p : Fin 5000) (q : Fin 288), j = ix2 p q := ⟨j 0, j 1, eq_ix2 j⟩
  show k0_pay1 (iblk0 V c 0 t) (iblk0 V c 1 t) (ix2 p q)
    = Cert.Spec.proj (V c main_arg0) (V c main_arg1) (((cfg0.win 2).blk t).view.emb (ix2 p q))
  refine (pay_apply _ _ p q).trans ?_
  unfold Cert.Spec.proj
  show _ = Finset.sum Finset.univ _
  refine Finset.sum_congr rfl fun k _ => ?_
  -- the entry of `x`: row `index × 5000 + p`, column `k`
  have hx : iblk0 V c 0 t (ix2 p k)
      = V c main_arg0 (Cert.Spec.rowK (((cfg0.win 2).blk t).view.emb (ix2 p q)) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 96 + 1 * k.val = k.val; omega
  -- the entry of `w`: row `k`, column `q`
  have hw : iblk0 V c 1 t (ix2 k q)
      = V c main_arg1 (Cert.Spec.kCol (((cfg0.win 2).blk t).view.emb (ix2 p q)) k) := by
    show V c main_arg1 (((cfg0.win 1).blk t).view.emb (ix2 k q)) = _
    refine congrArg (V c main_arg1) (funext fun a => Fin.ext ?_)
    match a with
    | ⟨0, _⟩ => show win0_1.index t (0 : Fin 2) * 96 + 1 * k.val = k.val; omega
    | ⟨1, _⟩ => show win0_1.index t (1 : Fin 2) * 288 + 1 * q.val = win0_2.index t (1 : Fin 2) * 288 + 1 * q.val; omega
  rw [hx, hw]

/-- An entry of the array is in point `t`'s block iff each coordinate is in the block's range on its axis. -/
theorem mem_blk (t : Fin cfg0.N) (i : S50000x288.Idx) :
    i ∈ ((cfg0.win 2).blk t).view.set ↔ ∀ a : Fin 2, win0_2.index t a * S5000x288.size a ≤ (i a).val
      ∧ (i a).val < win0_2.index t a * S5000x288.size a + S5000x288.size a := by
  show i ∈ ((View.whole main_v30).slice (win0_2.rect t)).set ↔ _
  rw [View.set_slice_whole, Rect.mem_set_unit]
  exact Iff.rfl

/-- Every entry of the array is in some point's block: row `r` is in row block `r / 5000`. -/
theorem cover (i : S50000x288.Idx) :
    ∃ t : Fin cfg0.N, (cfg0.win 2).flush t = true ∧ i ∈ ((cfg0.win 2).blk t).view.set := by
  have hi0 : (i 0).val < 50000 := (i 0).isLt
  have hi1 : (i 1).val < 288 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 288 ≤ (i 1).val ∧ (i 1).val < win0_2.index t (1 : Fin 2) * 288 + 288; omega

/-- The projected-features array after the first region: `x · w` of the two arrays the region found. -/
theorem final (c : Dev nD) :
    (dat0 (F := Ideal) V c).arrAt 2 cfg0.N = Cert.Spec.proj (V c main_arg0) (V c main_arg1) :=
  (dat0 V c).arrAt_eq_of_cover 2 (Cert.Spec.proj (V c main_arg0) (V c main_arg1)) (fun t _ => flushed_eq V c t) cover

end Cert.KernelIdeal.Region0

end
-- ==== Proof.Region1.lean ====
import proofs.«156920_j28183575396996_1_alg».proof.Proof.Gen.KernelIdeal.Frame
import proofs.«156920_j28183575396996_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The two products' operand indices

The hidden layer's product contracts the 288 feature channels: at output entry (p, k) and contraction coordinate j the
left operand is read at (p, j) and the right at (j, k). The output product contracts the 32 hidden channels likewise.
Each coordinate of each operand index is stated on its own, at its literal axis. -/

theorem lhsH_0 (i : S5000x32.Idx) (q : dot_S5000x288_S288x32_S5000x32_1_0_0_1_n_n.contr.Idx) :
    (dot_S5000x288_S288x32_S5000x32_1_0_0_1_n_n.lhsIdx i q 0).val = (i 0).val := by
  unfold DotDims.lhsIdx
  rw [dif_neg (show ¬(0 : Fin S5000x288.rank) ∈ dot_S5000x288_S288x32_S5000x32_1_0_0_1_n_n.lhsBatch by decide), dif_pos (show (0 : Fin S5000x288.rank) ∈ dot_S5000x288_S288x32_S5000x32_1_0_0_1_n_n.lhsNonContracting by decide)]
  rfl
theorem lhsH_1 (i : S5000x32.Idx) (q : dot_S5000x288_S288x32_S5000x32_1_0_0_1_n_n.contr.Idx) :
    (dot_S5000x288_S288x32_S5000x32_1_0_0_1_n_n.lhsIdx i q 1).val = (q ⟨0, by decide⟩).val :=
  dot_S5000x288_S288x32_S5000x32_1_0_0_1_n_n.lhsIdx_val_of_single rfl i q
theorem rhsH_0 (i : S5000x32.Idx) (q : dot_S5000x288_S288x32_S5000x32_1_0_0_1_n_n.contr.Idx) :
    (dot_S5000x288_S288x32_S5000x32_1_0_0_1_n_n.rhsIdx i q 0).val = (q ⟨0, by decide⟩).val :=
  dot_S5000x288_S288x32_S5000x32_1_0_0_1_n_n.rhsIdx_val_of_single rfl i q
theorem rhsH_1 (i : S5000x32.Idx) (q : dot_S5000x288_S288x32_S5000x32_1_0_0_1_n_n.contr.Idx) :
    (dot_S5000x288_S288x32_S5000x32_1_0_0_1_n_n.rhsIdx i q 1).val = (i 1).val := by
  unfold DotDims.rhsIdx
  rw [dif_neg (show ¬(1 : Fin S288x32.rank) ∈ dot_S5000x288_S288x32_S5000x32_1_0_0_1_n_n.rhsBatch by decide), dif_pos (show (1 : Fin S288x32.rank) ∈ dot_S5000x288_S288x32_S5000x32_1_0_0_1_n_n.rhsNonContracting by decide)]
  rfl

theorem lhsO_0 (i : S5000x96.Idx) (q : dot_S5000x32_S32x96_S5000x96_1_0_0_1_n_n.contr.Idx) :
    (dot_S5000x32_S32x96_S5000x96_1_0_0_1_n_n.lhsIdx i q 0).val = (i 0).val := by
  unfold DotDims.lhsIdx
  rw [dif_neg (show ¬(0 : Fin S5000x32.rank) ∈ dot_S5000x32_S32x96_S5000x96_1_0_0_1_n_n.lhsBatch by decide), dif_pos (show (0 : Fin S5000x32.rank) ∈ dot_S5000x32_S32x96_S5000x96_1_0_0_1_n_n.lhsNonContracting by decide)]
  rfl
theorem lhsO_1 (i : S5000x96.Idx) (q : dot_S5000x32_S32x96_S5000x96_1_0_0_1_n_n.contr.Idx) :
    (dot_S5000x32_S32x96_S5000x96_1_0_0_1_n_n.lhsIdx i q 1).val = (q ⟨0, by decide⟩).val :=
  dot_S5000x32_S32x96_S5000x96_1_0_0_1_n_n.lhsIdx_val_of_single rfl i q
theorem rhsO_0 (i : S5000x96.Idx) (q : dot_S5000x32_S32x96_S5000x96_1_0_0_1_n_n.contr.Idx) :
    (dot_S5000x32_S32x96_S5000x96_1_0_0_1_n_n.rhsIdx i q 0).val = (q ⟨0, by decide⟩).val :=
  dot_S5000x32_S32x96_S5000x96_1_0_0_1_n_n.rhsIdx_val_of_single rfl i q
theorem rhsO_1 (i : S5000x96.Idx) (q : dot_S5000x32_S32x96_S5000x96_1_0_0_1_n_n.contr.Idx) :
    (dot_S5000x32_S32x96_S5000x96_1_0_0_1_n_n.rhsIdx i q 1).val = (i 1).val := by
  unfold DotDims.rhsIdx
  rw [dif_neg (show ¬(1 : Fin S32x96.rank) ∈ dot_S5000x32_S32x96_S5000x96_1_0_0_1_n_n.rhsBatch by decide), dif_pos (show (1 : Fin S32x96.rank) ∈ dot_S5000x32_S32x96_S5000x96_1_0_0_1_n_n.rhsNonContracting by decide)]
  rfl

/-! ## The two products at an entry: a plain sum over the contracted channel -/

/-- The hidden layer's product into the zero array, at entry (p, k): the sum over the 288 feature channels j of
    a (p, j) · b (j, k). -/
theorem prodH_apply (a : FVec Ideal S5000x288 .bf16) (b : FVec Ideal S288x32 .bf16) (p : Fin 5000) (k : Fin 32) :
    matmul dot_S5000x288_S288x32_S5000x32_1_0_0_1_n_n none a b (constant (F := Ideal) S5000x32 .f32 0x00000000#32) (ix2 p k)
      = ∑ j : Fin 288, a (ix2 p j) * b (ix2 j k) := by
  simp only [matmul]
  rw [Ideal.matmul_constant_zero_apply, ← Equiv.sum_comp (ValueIdx.contrEquiv1 dot_S5000x288_S288x32_S5000x32_1_0_0_1_n_n 288 rfl rfl).symm]
  refine Finset.sum_congr rfl fun j _ => ?_
  have hk := ValueIdx.contrEquiv1_symm_val dot_S5000x288_S288x32_S5000x32_1_0_0_1_n_n 288 rfl rfl j
  have el : dot_S5000x288_S288x32_S5000x32_1_0_0_1_n_n.lhsIdx (ix2 p k) ((ValueIdx.contrEquiv1 dot_S5000x288_S288x32_S5000x32_1_0_0_1_n_n 288 rfl rfl).symm j) = ix2 p j := funext fun a => Fin.ext (by
    match a with
    | ⟨0, _⟩ => exact lhsH_0 _ _
    | ⟨1, _⟩ => exact (lhsH_1 _ _).trans hk)
  have er : dot_S5000x288_S288x32_S5000x32_1_0_0_1_n_n.rhsIdx (ix2 p k) ((ValueIdx.contrEquiv1 dot_S5000x288_S288x32_S5000x32_1_0_0_1_n_n 288 rfl rfl).symm j) = ix2 j k := funext fun a => Fin.ext (by
    match a with
    | ⟨0, _⟩ => exact (rhsH_0 _ _).trans hk
    | ⟨1, _⟩ => exact rhsH_1 _ _)
  rw [el, er]

/-- The output product into the zero array, at entry (p, q): the sum over the 32 hidden channels k of
    a (p, k) · b (k, q). -/
theorem prodO_apply (a : FVec Ideal S5000x32 .bf16) (b : FVec Ideal S32x96 .bf16) (p : Fin 5000) (q : Fin 96) :
    matmul dot_S5000x32_S32x96_S5000x96_1_0_0_1_n_n none a b (constant (F := Ideal) S5000x96 .f32 0x00000000#32) (ix2 p q)
      = ∑ k : Fin 32, a (ix2 p k) * b (ix2 k q) := by
  simp only [matmul]
  rw [Ideal.matmul_constant_zero_apply, ← Equiv.sum_comp (ValueIdx.contrEquiv1 dot_S5000x32_S32x96_S5000x96_1_0_0_1_n_n 32 rfl rfl).symm]
  refine Finset.sum_congr rfl fun k _ => ?_
  have hk := ValueIdx.contrEquiv1_symm_val dot_S5000x32_S32x96_S5000x96_1_0_0_1_n_n 32 rfl rfl k
  have el : dot_S5000x32_S32x96_S5000x96_1_0_0_1_n_n.lhsIdx (ix2 p q) ((ValueIdx.contrEquiv1 dot_S5000x32_S32x96_S5000x96_1_0_0_1_n_n 32 rfl rfl).symm k) = ix2 p k := funext fun a => Fin.ext (by
    match a with
    | ⟨0, _⟩ => exact lhsO_0 _ _
    | ⟨1, _⟩ => exact (lhsO_1 _ _).trans hk)
  have er : dot_S5000x32_S32x96_S5000x96_1_0_0_1_n_n.rhsIdx (ix2 p q) ((ValueIdx.contrEquiv1 dot_S5000x32_S32x96_S5000x96_1_0_0_1_n_n 32 rfl rfl).symm k) = ix2 k q := funext fun a => Fin.ext (by
    match a with
    | ⟨0, _⟩ => exact (rhsO_0 _ _).trans hk
    | ⟨1, _⟩ => exact rhsO_1 _ _)
  rw [el, er]

/-! ## The kernel body's arithmetic at an entry

The body computes, on a block of 5000 rows, the hidden layer `max (feat · w1 + b1) 0` and then
`x + (hidden · w2 + b2)`. Over the extended reals a change of float format is the identity and a product into the
zero array is the plain sum, so each entry is the closed expression below. -/

/-- The hidden layer's block as the body computes it from the feature block, the first weight matrix and the first
    bias: product, bias added along the rows, maximum with zero. -/
def hidBlk (v0 : Vec Ideal S5000x288 .f32) (v3 : Vec Ideal S288x32 .f32) (v6 : Vec Ideal S32 .f32) : FVec Ideal S5000x32 .f32 :=
  maximumf
    (addf
      (matmul dot_S5000x288_S288x32_S5000x32_1_0_0_1_n_n none
        (truncf .bf16 (shapeCast S5000x288 v0 shapeCasts_S5000x288_S5000x288) bitsLt_bf16_f32)
        (truncf .bf16 v3 bitsLt_bf16_f32) (constant (F := Ideal) S5000x32 .f32 0x00000000#32))
      (broadcastTo S5000x32 (shapeCast S1x32 v6 shapeCasts_S32_S1x32) broadcasts_S1x32_S5000x32))
    (broadcast S5000x32 (Scalar.ofBits (F := Ideal) .f32 0x00000000#32))

/-- The body's result is the residual plus the output layer of the hidden block: the body's chain of values, read
    off by unfolding. -/
theorem pay_eq (v0 : Vec Ideal S5000x288 .f32) (v3 : Vec Ideal S288x32 .f32) (v6 : Vec Ideal S32 .f32)
    (v13 : Vec Ideal S32x96 .f32) (v16 : Vec Ideal S96 .f32) (v20 : Vec Ideal S5000x96 .f32) :
    k1_pay1 (F := Ideal) v0 v3 v6 v13 v16 v20
      = addf v20
          (addf
            (matmul dot_S5000x32_S32x96_S5000x96_1_0_0_1_n_n none (truncf .bf16 (hidBlk v0 v3 v6) bitsLt_bf16_f32)
              (truncf .bf16 v13 bitsLt_bf16_f32) (constant (F := Ideal) S5000x96 .f32 0x00000000#32))
            (broadcastTo S5000x96 (shapeCast S1x96 v16 shapeCasts_S96_S1x96) broadcasts_S1x96_S5000x96)) := rfl

/-- A bias vector laid out as one row and repeated down the rows reads, at (p, k), the vector at k. -/
theorem biasRow_apply {a b : Nat} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ v h1) h2 (ix2 p k) = v (ix1 k) :=
  (broadcastTo_1b_ab_apply _ h2 p k).trans (shapeCast_a_1a_apply v h1 0 k)

/-- The hidden block at entry (p, k): `max ((∑ j, feat (p, j) · w1 (j, k)) + b1 k) 0`. -/
theorem hidBlk_apply (v0 : Vec Ideal S5000x288 .f32) (v3 : Vec Ideal S288x32 .f32) (v6 : Vec Ideal S32 .f32)
    (p : Fin 5000) (k : Fin 32) :
    hidBlk v0 v3 v6 (ix2 p k) = max ((∑ j : Fin 288, v0 (ix2 p j) * v3 (ix2 j k)) + v6 (ix1 k)) 0 := by
  unfold hidBlk
  rw [maximumf_apply, addf_apply, broadcast_apply, prodH_apply, shapeCast_self]
  refine congrArg₂ max (congrArg₂ (· + ·) rfl (biasRow_apply v6 _ _ p k)) ?_
  exact Ideal.ofBits_zero_f32

/-- The body's result at entry (p, q):
    `x (p, q) + ((∑ k, max ((∑ j, feat (p, j) · w1 (j, k)) + b1 k) 0 · w2 (k, q)) + b2 q)`. -/
theorem pay_apply (v0 : Vec Ideal S5000x288 .f32) (v3 : Vec Ideal S288x32 .f32) (v6 : Vec Ideal S32 .f32)
    (v13 : Vec Ideal S32x96 .f32) (v16 : Vec Ideal S96 .f32) (v20 : Vec Ideal S5000x96 .f32) (p : Fin 5000) (q : Fin 96) :
    k1_pay1 (F := Ideal) v0 v3 v6 v13 v16 v20 (ix2 p q)
      = v20 (ix2 p q) + ((∑ k : Fin 32, max ((∑ j : Fin 288, v0 (ix2 p j) * v3 (ix2 j k)) + v6 (ix1 k)) 0 * v13 (ix2 k q)) + v16 (ix1 q)) := by
  rw [pay_eq, addf_apply, addf_apply, prodO_apply]
  refine congrArg₂ (· + ·) rfl (congrArg₂ (· + ·) (Finset.sum_congr rfl fun k _ => ?_) (biasRow_apply v16 _ _ p q))
  exact congrArg₂ (· * ·) (hidBlk_apply v0 v3 v6 p k) rfl

/-- The same at any index z of the block whose coordinates are p and q. -/
theorem pay_at (v0 : Vec Ideal S5000x288 .f32) (v3 : Vec Ideal S288x32 .f32) (v6 : Vec Ideal S32 .f32)
    (v13 : Vec Ideal S32x96 .f32) (v16 : Vec Ideal S96 .f32) (v20 : Vec Ideal S5000x96 .f32) (z : S5000x96.Idx)
    (p : Fin 5000) (q : Fin 96) (hp : (z 0).val = p.val) (hq : (z 1).val = q.val) :
    k1_pay1 (F := Ideal) v0 v3 v6 v13 v16 v20 z
      = v20 (ix2 p q) + ((∑ k : Fin 32, max ((∑ j : Fin 288, v0 (ix2 p j) * v3 (ix2 j k)) + v6 (ix1 k)) 0 * v13 (ix2 k q)) + v16 (ix1 q)) := by
  have hz : z = ix2 p q := funext fun a => Fin.ext (by
    match a with
    | ⟨0, _⟩ => exact hp
    | ⟨1, _⟩ => exact hq)
  rw [hz]
  exact pay_apply v0 v3 v6 v13 v16 v20 p q

/-! ## From blocks to the array

The grid has 10 points; point t works on rows 5000·t … 5000·t + 4999 of the feature array, of the residual array and
of the result array, and on the whole of the two weight matrices and the two biases. -/

theorem zeroOff2 : (![0, 0] : Fin 2 → Nat) = fun _ => 0 := funext fun a => by fin_cases a <;> rfl
theorem zeroOff1 : (![0] : Fin 1 → Nat) = fun _ => 0 := funext fun a => by fin_cases a <;> rfl

/-- The printed index maps, decided over the grid: the feature and residual blocks move with the result's block along
    the rows and sit at column block 0; the weights and biases stay at block 0; the result's row block is at most 9. -/
theorem blockIdx : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 9 :=
  (by decide +kernel : ∀ t : Fin grid1.N, _)

/-- Every row block of the result is some point's. -/
theorem blockOnto : ∀ q : Fin 10, ∃ t : Fin cfg1.N, win1_6.index t = ![q.val, 0] :=
  (by decide +kernel : ∀ q : Fin 10, ∃ t : Fin grid1.N, win1_6.index t = ![q.val, 0])

/-- What point t writes back is block t of the update of the six arrays the region found. -/
theorem flushed_eq (c : Dev nD) (t : Fin cfg1.N) :
    (dat1 (F := Ideal) V c).flushed 6 t
      = ((cfg1.win 6).blk t).view.read (Elt Ideal)
          (Cert.Spec.upd (V c main_v43) (V c main_arg0) (V c main_arg2) (V c main_arg3) (V c main_arg4) (V c main_arg5)) := by
  show (cfg1.win 6).cut (grid1.coords t) ((dat1 V c).after 6 t) = _
  rw [after1_6]
  unfold out1_6
  rw [View.canon_unit_zero zeroOff2]
  simp only [View.ld_unit_zero (S := S5000x288) zeroOff2, View.ld_unit_zero (S := S5000x96) zeroOff2,
    View.ld_unit_zero (S := S288x32) zeroOff2, View.ld_unit_zero (S := S32x96) zeroOff2,
    View.ld_unit_zero (S := S32) zeroOff1, View.ld_unit_zero (S := S96) zeroOff1]
  funext y
  have hy0 : (y 0).val < 5000 := (y 0).isLt
  have hy1 : (y 1).val < 96 := (y 1).isLt
  obtain ⟨p, hp⟩ : ∃ p : Fin 5000, (y 0).val = p.val := ⟨⟨_, hy0⟩, rfl⟩
  obtain ⟨q, hq⟩ : ∃ q : Fin 96, (y 1).val = q.val := ⟨⟨_, hy1⟩, rfl⟩
  obtain ⟨e00, e01, e10, e11, e20, e21, e30, e40, e41, e50, e61, e60⟩ := blockIdx t
  refine (pay_at (iblk1 V c 0 t) (iblk1 V c 2 t) (iblk1 V c 3 t) (iblk1 V c 4 t) (iblk1 V c 5 t) (iblk1 V c 1 t) _ p q hp hq).trans ?_
  show _ = Cert.Spec.upd (V c main_v43) (V c main_arg0) (V c main_arg2) (V c main_arg3) (V c main_arg4) (V c main_arg5) (((cfg1.win 6).blk t).view.emb y)
  unfold Cert.Spec.upd Cert.Spec.hidden
  -- the residual entry: the residual block moves with the result's
  have hx : iblk1 V c 1 t (ix2 p q) = V c main_arg0 (((cfg1.win 6).blk t).view.emb y) := by
    show V c main_arg0 (((cfg1.win 1).blk t).view.emb (ix2 p q)) = _
    refine congrArg (V c main_arg0) (funext fun a => Fin.ext ?_)
    match a with
    | ⟨0, _⟩ => show win1_1.index t (0 : Fin 2) * 5000 + 1 * p.val = win1_6.index t (0 : Fin 2) * 5000 + 1 * (y 0).val; omega
    | ⟨1, _⟩ => show win1_1.index t (1 : Fin 2) * 96 + 1 * q.val = win1_6.index t (1 : Fin 2) * 96 + 1 * (y 1).val; omega
  -- the feature entry (row of the result's entry, feature channel j): the feature block moves with the result's
  have hfeat : ∀ (k : Fin 32) (j : Fin 288), iblk1 V c 0 t (ix2 p j)
      = V c main_v43 (Cert.Spec.rowK (Cert.Spec.rowK (((cfg1.win 6).blk t).view.emb y) k) j) := fun k j => by
    show V c main_v43 (((cfg1.win 0).blk t).view.emb (ix2 p j)) = _
    refine congrArg (V c main_v43) (funext fun a => Fin.ext ?_)
    match a with
    | ⟨0, _⟩ => show win1_0.index t (0 : Fin 2) * 5000 + 1 * p.val = win1_6.index t (0 : Fin 2) * 5000 + 1 * (y 0).val; omega
    | ⟨1, _⟩ => show win1_0.index t (1 : Fin 2) * 288 + 1 * j.val = j.val; omega
  -- the first weight matrix at (j, k): the whole matrix is the one block
  have hw1 : ∀ (k : Fin 32) (j : Fin 288), iblk1 V c 2 t (ix2 j k)
      = V c main_arg2 (Cert.Spec.kCol (Cert.Spec.rowK (((cfg1.win 6).blk t).view.emb y) k) j) := fun k j => by
    show V c main_arg2 (((cfg1.win 2).blk t).view.emb (ix2 j k)) = _
    refine congrArg (V c main_arg2) (funext fun a => Fin.ext ?_)
    match a with
    | ⟨0, _⟩ => show win1_2.index t (0 : Fin 2) * 288 + 1 * j.val = j.val; omega
    | ⟨1, _⟩ => show win1_2.index t (1 : Fin 2) * 32 + 1 * k.val = k.val; omega
  -- the first bias at k
  have hb1 : ∀ k : Fin 32, iblk1 V c 3 t (ix1 k)
      = V c main_arg3 (Cert.Spec.colOf (Cert.Spec.rowK (((cfg1.win 6).blk t).view.emb y) k)) := fun k => by
    show V c main_arg3 (((cfg1.win 3).blk t).view.emb (ix1 k)) = _
    refine congrArg (V c main_arg3) (funext fun a => Fin.ext ?_)
    match a with
    | ⟨0, _⟩ => show win1_3.index t (0 : Fin 1) * 32 + 1 * k.val = k.val; omega
  -- the second weight matrix at (k, column of the result's entry)
  have hw2 : ∀ k : Fin 32, iblk1 V c 4 t (ix2 k q)
      = V c main_arg4 (Cert.Spec.kCol (((cfg1.win 6).blk t).view.emb y) k) := fun k => by
    show V c main_arg4 (((cfg1.win 4).blk t).view.emb (ix2 k q)) = _
    refine congrArg (V c main_arg4) (funext fun a => Fin.ext ?_)
    match a with
    | ⟨0, _⟩ => show win1_4.index t (0 : Fin 2) * 32 + 1 * k.val = k.val; omega
    | ⟨1, _⟩ => show win1_4.index t (1 : Fin 2) * 96 + 1 * q.val = win1_6.index t (1 : Fin 2) * 96 + 1 * (y 1).val; omega
  -- the second bias at the column of the result's entry
  have hb2 : iblk1 V c 5 t (ix1 q) = V c main_arg5 (Cert.Spec.colOf (((cfg1.win 6).blk t).view.emb y)) := by
    show V c main_arg5 (((cfg1.win 5).blk t).view.emb (ix1 q)) = _
    refine congrArg (V c main_arg5) (funext fun a => Fin.ext ?_)
    match a with
    | ⟨0, _⟩ => show win1_5.index t (0 : Fin 1) * 96 + 1 * q.val = win1_6.index t (1 : Fin 2) * 96 + 1 * (y 1).val; omega
  refine congrArg₂ (· + ·) hx (congrArg₂ (· + ·) (Finset.sum_congr rfl fun k _ => ?_) hb2)
  refine congrArg₂ (· * ·) (congrArg₂ max (congrArg₂ (· + ·) (Finset.sum_congr rfl fun j _ => ?_) (hb1 k)) rfl) (hw2 k)
  exact congrArg₂ (· * ·) (hfeat k j) (hw1 k j)

/-- An index of the result array is in point t's block iff each coordinate is in the block's range on its axis. -/
theorem mem_blk (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v44).slice (win1_6.rect t)).set ↔ _
  rw [View.set_slice_whole, Rect.mem_set_unit]
  exact Iff.rfl

/-- The ten row blocks tile the result array: the entry in row r is in the block of the point with row block r / 5000. -/
theorem cover (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  obtain ⟨t, ht⟩ := blockOnto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 96 ≤ (i 1).val ∧ (i 1).val < win1_6.index t (1 : Fin 2) * 96 + 96; omega

/-- The result array after the second region: the update with its residual, of the six arrays the region found. -/
theorem final (c : Dev nD) :
    (dat1 (F := Ideal) V c).arrAt 6 cfg1.N
      = Cert.Spec.upd (V c main_v43) (V c main_arg0) (V c main_arg2) (V c main_arg3) (V c main_arg4) (V c main_arg5) :=
  (dat1 (F := Ideal) V c).arrAt_eq_of_cover 6
    (Cert.Spec.upd (V c main_v43) (V c main_arg0) (V c main_arg2) (V c main_arg3) (V c main_arg4) (V c main_arg5))
    (fun t _ => flushed_eq V c t) cover

end Cert.KernelIdeal.Region1

end
-- ==== Proof.HostRead.lean ====
import proofs.«156920_j28183575396996_1_alg».proof.Proof.Gen.KernelIdeal.Frame
import proofs.«156920_j28183575396996_1_alg».proof.Proof.Spec
import Idealize.ShloMosaic.Lib.StableHlo.Run

set_option maxRecDepth 16384

noncomputable section

namespace Cert.KernelIdeal.HostRead

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- A buffer that no operation of the named stretch writes holds after the stretch what it held before: each
    operation's written buffer is compared with the buffer at hand. -/
local macro "unwritten" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the first region finds -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0
    _ = m ((c : Thread nD τ).loc main_arg1) := rfl

/-! ## Each host stretch read at one buffer, from any entry contents -/

/-- The first stretch leaves in the sources' vector the edge list's row 0 followed by the node ids. -/
theorem src_read (X : Valuation τ sig (Elt F)) :
    StableHlo.after hostOps0 X (Proc.devRef .tc main_v5) = Cert.Spec.srcIds (X (Proc.devRef .tc main_arg6)) := by
  after_results
  rfl
/-- The first stretch leaves in the destinations' vector the edge list's row 1 followed by the node ids. -/
theorem dst_read (X : Valuation τ sig (Elt F)) :
    StableHlo.after hostOps0 X (Proc.devRef .tc main_v6) = Cert.Spec.dstIds (X (Proc.devRef .tc main_arg6)) := by
  after_results
  rfl
/-- The first stretch's test "the degree is positive". -/
theorem pos_read (X : Valuation τ sig (Elt F)) :
    StableHlo.after hostOps0 X (Proc.devRef .tc main_v12)
      = cmpf (F := F) .ogt (Cert.Spec.degOf (X (Proc.devRef .tc main_arg6)))
          (broadcastInDim S50000 ![] bcast_S_S50000 (constant S_ .f32 0x00000000#32)) := by
  after_results
  rfl
/-- The first stretch's inverse square root of the degree. -/
theorem rsqrt_read (X : Valuation τ sig (Elt F)) :
    StableHlo.after hostOps0 X (Proc.devRef .tc main_v13) = Host.rsqrt (Cert.Spec.degOf (X (Proc.devRef .tc main_arg6))) := by
  after_results
  rfl
/-- The first stretch's last constant: zero. -/
theorem zero_read (X : Valuation τ sig (Elt F)) :
    StableHlo.after hostOps0 X (Proc.devRef .tc main_cst_2) = constant S_ .f32 0x00000000#32 := by
  after_results
/-- The second stretch selects, entry by entry, between the inverse square root and the broadcast constant. -/
theorem dinv_read (X : Valuation τ sig (Elt F)) :
    StableHlo.after hostOps0_1 X (Proc.devRef .tc main_v14)
      = select (X (Proc.devRef .tc main_v12)) (X (Proc.devRef .tc main_v13))
          (broadcastInDim S50000 ![] bcast_S_S50000 (id (X (Proc.devRef .tc main_cst_2)))) := by
  after_results
  rfl
/-- The third stretch gathers the scaled degrees at the wrapped sources and destinations and multiplies them. -/
theorem norm_read (X : Valuation τ sig (Elt F)) :
    StableHlo.after hostOps0_2 X (Proc.devRef .tc main_v29)
      = mulf (Host.gather gather_S50000_S850000x1_S850000_n_0_n_n_0_1_1 (X (Proc.devRef .tc main_v14))
                (Cert.Spec.wrapCol (X (Proc.devRef .tc main_v5))))
          (Host.gather gather_S50000_S850000x1_S850000_n_0_n_n_0_1_1 (X (Proc.devRef .tc main_v14))
                (Cert.Spec.wrapCol (X (Proc.devRef .tc main_v6)))) := by
  after_results_simp
  rfl
/-- The fourth stretch: gather the rows at the wrapped sources, scale, scatter-add into the destinations' rows. -/
theorem agg_read (X : Valuation τ sig (Elt F)) :
    StableHlo.after hostOps1 X (Proc.devRef .tc main_v43)
      = Cert.Spec.aggOf (X (Proc.devRef .tc main_v30)) (X (Proc.devRef .tc main_v5)) (X (Proc.devRef .tc main_v6))
          (X (Proc.devRef .tc main_v29)) := by
  after_results_simp
  rfl

/-! ## The host's vectors before the first region: sources, destinations and the normalisation -/

/-- The sources' vector is written by the first stretch only, so the two later stretches keep it. -/
theorem W2_src (c : Dev nD) : W2 m ρ c (Proc.devRef .tc main_v5) = Cert.Spec.srcIds (m ((c : Thread nD τ).loc main_arg6)) :=
  calc W2 m ρ c (Proc.devRef .tc main_v5)
    _ = W1 m ρ c (Proc.devRef .tc main_v5) := by unwritten hostOps0_1
    _ = Cert.Spec.srcIds (W0 m ρ c (Proc.devRef .tc main_arg6)) := src_read (W0 m ρ c)
    _ = Cert.Spec.srcIds (m ((c : Thread nD τ).loc main_arg6)) := rfl
/-- The destinations' vector likewise. -/
theorem W2_dst (c : Dev nD) : W2 m ρ c (Proc.devRef .tc main_v6) = Cert.Spec.dstIds (m ((c : Thread nD τ).loc main_arg6)) :=
  calc W2 m ρ c (Proc.devRef .tc main_v6)
    _ = W1 m ρ c (Proc.devRef .tc main_v6) := by unwritten hostOps0_1
    _ = Cert.Spec.dstIds (W0 m ρ c (Proc.devRef .tc main_arg6)) := dst_read (W0 m ρ c)
    _ = Cert.Spec.dstIds (m ((c : Thread nD τ).loc main_arg6)) := rfl
/-- After the second stretch the scaled degrees are `d^(-1/2)` where the degree is positive and zero elsewhere:
    the selection of the second stretch applied to the test, the inverse square root and the constant of the first. -/
theorem W2_dinv (c : Dev nD) : W2 m ρ c (Proc.devRef .tc main_v14) = Cert.Spec.dinvOf (m ((c : Thread nD τ).loc main_arg6)) := by
  have h12 : W1 m ρ c (Proc.devRef .tc main_v12)
      = cmpf (F := F) .ogt (Cert.Spec.degOf (m ((c : Thread nD τ).loc main_arg6)))
          (broadcastInDim S50000 ![] bcast_S_S50000 (constant S_ .f32 0x00000000#32)) := pos_read (W0 m ρ c)
  have h13 : W1 m ρ c (Proc.devRef .tc main_v13) = Host.rsqrt (Cert.Spec.degOf (m ((c : Thread nD τ).loc main_arg6))) :=
    rsqrt_read (W0 m ρ c)
  have hz : W1 m ρ c (Proc.devRef .tc main_cst_2) = constant S_ .f32 0x00000000#32 := zero_read (W0 m ρ c)
  have h := dinv_read (W1 m ρ c)
  rw [h12, h13, hz] at h
  exact h

theorem W3_src (c : Dev nD) : W3 m ρ c (Proc.devRef .tc main_v5) = Cert.Spec.srcIds (m ((c : Thread nD τ).loc main_arg6)) :=
  calc W3 m ρ c (Proc.devRef .tc main_v5)
    _ = W2 m ρ c (Proc.devRef .tc main_v5) := by unwritten hostOps0_2
    _ = Cert.Spec.srcIds (m ((c : Thread nD τ).loc main_arg6)) := W2_src m ρ c
theorem W3_dst (c : Dev nD) : W3 m ρ c (Proc.devRef .tc main_v6) = Cert.Spec.dstIds (m ((c : Thread nD τ).loc main_arg6)) :=
  calc W3 m ρ c (Proc.devRef .tc main_v6)
    _ = W2 m ρ c (Proc.devRef .tc main_v6) := by unwritten hostOps0_2
    _ = Cert.Spec.dstIds (m ((c : Thread nD τ).loc main_arg6)) := W2_dst m ρ c
theorem W3_norm (c : Dev nD) : W3 m ρ c (Proc.devRef .tc main_v29) = Cert.Spec.normOf (m ((c : Thread nD τ).loc main_arg6)) := by
  have h := norm_read (W2 m ρ c)
  rw [W2_dinv m ρ c, W2_src m ρ c, W2_dst m ρ c] at h
  exact h

/-! ## What the second region finds -/

/-- The aggregated features: the message-passing chain of what the first region left in the projected-features array. -/
theorem W5_feat (c : Dev nD) :
    W5 m ρ c (Proc.devRef .tc main_v43)
      = Cert.Spec.aggOf (W4 m ρ c (Proc.devRef .tc main_v30)) (Cert.Spec.srcIds (m ((c : Thread nD τ).loc main_arg6)))
          (Cert.Spec.dstIds (m ((c : Thread nD τ).loc main_arg6))) (Cert.Spec.normOf (m ((c : Thread nD τ).loc main_arg6))) := by
  -- the three host vectors are no array of the first region's windows, so the region leaves them as it found them
  have h5 : W4 m ρ c (Proc.devRef .tc main_v5) = Cert.Spec.srcIds (m ((c : Thread nD τ).loc main_arg6)) :=
    (W4_of_ne m ρ c main_v5 (by decide)).trans (W3_src m ρ c)
  have h6 : W4 m ρ c (Proc.devRef .tc main_v6) = Cert.Spec.dstIds (m ((c : Thread nD τ).loc main_arg6)) :=
    (W4_of_ne m ρ c main_v6 (by decide)).trans (W3_dst m ρ c)
  have h29 : W4 m ρ c (Proc.devRef .tc main_v29) = Cert.Spec.normOf (m ((c : Thread nD τ).loc main_arg6)) :=
    (W4_of_ne m ρ c main_v29 (by decide)).trans (W3_norm m ρ c)
  have h := agg_read (W4 m ρ c)
  rw [h5, h6, h29] at h
  exact h
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by unwritten hostOps1
    _ = W3 m ρ c (Proc.devRef .tc main_arg0) :=
        (W4_arr m ρ c 0).trans (((dat0 (V3 m ρ) c).arrAt_in 0 rfl _).trans (A_eq0 (V3 m ρ) c 0))
    _ = m ((c : Thread nD τ).loc main_arg0) := W3_arg0 m ρ c
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by unwritten hostOps1
    _ = W3 m ρ c (Proc.devRef .tc main_arg2) := W4_of_ne m ρ c main_arg2 (by decide)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by unwritten hostOps1
    _ = W3 m ρ c (Proc.devRef .tc main_arg3) := W4_of_ne m ρ c main_arg3 (by decide)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by unwritten hostOps1
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by unwritten hostOps1
    _ = W3 m ρ c (Proc.devRef .tc main_arg5) := W4_of_ne m ρ c main_arg5 (by decide)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

end Cert.KernelIdeal.HostRead

end
-- ==== Proof.KernelValue.lean ====
import proofs.«156920_j28183575396996_1_alg».proof.Proof.Gen.KernelIdeal.Frame
import proofs.«156920_j28183575396996_1_alg».proof.Proof.Spec
import proofs.«156920_j28183575396996_1_alg».proof.Proof.Region0
import proofs.«156920_j28183575396996_1_alg».proof.Proof.Region1
import proofs.«156920_j28183575396996_1_alg».proof.Proof.HostRead

/-!
# The kernel program's result as the specification of its arguments

The program's buffer contents are followed through its six segments: three stretches of host operations (the
index vectors and the normalisation), the first region (the projection, block by block), one more stretch (the
message-passing chain over what the first region left), and the second region (the update, block by block).
The result array ends at the update of the aggregated projection.
-/

set_option maxRecDepth 16384

noncomputable section

namespace Cert.KernelIdeal.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the first region leaves in the projected-features array: `x · W` of the launch contents. -/
theorem projected (c : Dev nD) :
    W4 (F := Ideal) m ρ c (Proc.devRef .tc main_v30)
      = Cert.Spec.proj (m ((c : Thread nD τ).loc main_arg0)) (m ((c : Thread nD τ).loc main_arg1)) := by
  refine (W4_arr m ρ c 2).trans ((Cert.KernelIdeal.Region0.final (V3 m ρ) c).trans ?_)
  show Cert.Spec.proj (W3 m ρ c (Proc.devRef .tc main_arg0)) (W3 m ρ c (Proc.devRef .tc main_arg1)) = _
  rw [Cert.KernelIdeal.HostRead.W3_arg0, Cert.KernelIdeal.HostRead.W3_arg1]

/-- The result array after the run: the update, with its residual, of the aggregated projection. -/
theorem result (c : Dev nD) :
    W6 (F := Ideal) m ρ c (Proc.devRef .tc main_v44)
      = Cert.Spec.upd
          (Cert.Spec.aggOf (Cert.Spec.proj (m ((c : Thread nD τ).loc main_arg0)) (m ((c : Thread nD τ).loc main_arg1)))
            (Cert.Spec.srcIds (m ((c : Thread nD τ).loc main_arg6))) (Cert.Spec.dstIds (m ((c : Thread nD τ).loc main_arg6)))
            (Cert.Spec.normOf (m ((c : Thread nD τ).loc main_arg6))))
          (m ((c : Thread nD τ).loc main_arg0)) (m ((c : Thread nD τ).loc main_arg2)) (m ((c : Thread nD τ).loc main_arg3))
          (m ((c : Thread nD τ).loc main_arg4)) (m ((c : Thread nD τ).loc main_arg5)) := by
  refine (W6_arr m ρ c 6).trans ((Cert.KernelIdeal.Region1.final (V5 m ρ) c).trans ?_)
  show Cert.Spec.upd (W5 m ρ c (Proc.devRef .tc main_v43)) (W5 m ρ c (Proc.devRef .tc main_arg0))
      (W5 m ρ c (Proc.devRef .tc main_arg2)) (W5 m ρ c (Proc.devRef .tc main_arg3)) (W5 m ρ c (Proc.devRef .tc main_arg4))
      (W5 m ρ c (Proc.devRef .tc main_arg5)) = _
  rw [Cert.KernelIdeal.HostRead.W5_feat, Cert.KernelIdeal.HostRead.W5_arg0, Cert.KernelIdeal.HostRead.W5_arg2,
    Cert.KernelIdeal.HostRead.W5_arg3, Cert.KernelIdeal.HostRead.W5_arg4, Cert.KernelIdeal.HostRead.W5_arg5, projected]

end Cert.KernelIdeal.KernelValue

end
-- ==== Proof.RefValue.lean ====
import proofs.«156920_j28183575396996_1_alg».proof.Proof.RefRead
import proofs.«156920_j28183575396996_1_alg».proof.Proof.Spec
import Idealize.ShloMosaic.Lib.ValueIdx
import Idealize.ShloMosaic.PureOps.Ideal.Laws

/-!
# The reference computes the specification

The reference applies, in order: the dense projection `x · W`; the message-passing chain (gather the source
rows, scale by the symmetric normalisation, scatter-add into the destination rows); and the two-layer update
with its residual. Stage by stage its value is the specification's function of the same name: the sparse
stages are literally the same compositions of host operations (for any float family), and the dense stages
are read entry by entry over the extended reals, a `dot_general` being the plain sum over its contracted axis.
-/

noncomputable section

namespace Cert.ReferenceIdeal.RefValue

open Idealize.ShloMosaic Idealize.ShloMosaic.ValueIdx
open Cert.ReferenceIdeal Cert.ReferenceIdeal.ReadP

/-! ## The sparse stages: the same host operations, whatever the float family -/

section AnyFamily
variable {F : FTy → Type} [FloatOps F]

/-- Sources: row 0 of the edge list, then one self loop per node. -/
theorem src_eq (e : (⟨S2x800000, .i32⟩ : BufTy).Contents (Elt F)) : val_main_v5 (F := F) e = Cert.Spec.srcIds e := rfl

/-- Destinations: row 1 of the edge list, then one self loop per node. -/
theorem dst_eq (e : (⟨S2x800000, .i32⟩ : BufTy).Contents (Elt F)) : val_main_v6 (F := F) e = Cert.Spec.dstIds e := rfl

/-- The normalisation: the inverse square roots of the two end nodes' degrees, multiplied. -/
theorem norm_eq (e : (⟨S2x800000, .i32⟩ : BufTy).Contents (Elt F)) : val_main_v29 (F := F) e = Cert.Spec.normOf e := rfl

/-- Message passing applied to the projected features. -/
theorem agg_eq (x0 : (⟨S50000x96, .f32⟩ : BufTy).Contents (Elt F)) (x1 : (⟨S96x288, .f32⟩ : BufTy).Contents (Elt F))
    (e : (⟨S2x800000, .i32⟩ : BufTy).Contents (Elt F)) :
    val_main_v43 (F := F) x0 x1 e
      = Cert.Spec.aggOf (val_main_v30 (F := F) x0 x1) (val_main_v5 (F := F) e) (val_main_v6 (F := F) e) (val_main_v29 (F := F) e) := rfl

end AnyFamily

/-! ## The dense stages, entry by entry over the extended reals -/

/-! The operand entries a product meets at output entry `i` and contraction coordinate `k`: (row of `i`, `k`) on the
left and (`k`, column of `i`) on the right; a bias, laid out as one row and repeated down the rows, is read at the
column of `i`. -/

theorem left30 (i : S50000x288.Idx) (k : Fin 96) : lidx_main_v30 i k = Cert.Spec.rowK i k :=
  funext fun a => by match a with | ⟨0, _⟩ => rfl | ⟨1, _⟩ => rfl
theorem right30 (i : S50000x288.Idx) (k : Fin 96) : ridx_main_v30 i k = Cert.Spec.kCol i k :=
  funext fun a => by match a with | ⟨0, _⟩ => rfl | ⟨1, _⟩ => rfl
theorem left44 (i : S50000x32.Idx) (k : Fin 288) : lidx_main_v44 i k = Cert.Spec.rowK i k :=
  funext fun a => by match a with | ⟨0, _⟩ => rfl | ⟨1, _⟩ => rfl
theorem right44 (i : S50000x32.Idx) (k : Fin 288) : ridx_main_v44 i k = Cert.Spec.kCol i k :=
  funext fun a => by match a with | ⟨0, _⟩ => rfl | ⟨1, _⟩ => rfl
theorem left49 (i : S50000x96.Idx) (k : Fin 32) : lidx_main_v49 i k = Cert.Spec.rowK i k :=
  funext fun a => by match a with | ⟨0, _⟩ => rfl | ⟨1, _⟩ => rfl
theorem right49 (i : S50000x96.Idx) (k : Fin 32) : ridx_main_v49 i k = Cert.Spec.kCol i k :=
  funext fun a => by match a with | ⟨0, _⟩ => rfl | ⟨1, _⟩ => rfl
theorem bias1 (i : S50000x32.Idx) : idx_main_v45 (idx_main_v46 i) = Cert.Spec.colOf i :=
  funext fun a => by match a with | ⟨0, _⟩ => rfl
theorem bias2 (i : S50000x96.Idx) : idx_main_v50 (idx_main_v51 i) = Cert.Spec.colOf i :=
  funext fun a => by match a with | ⟨0, _⟩ => rfl

/-- The projection: entry (r, j) is the sum over the input channels of `x (r, k) · w (k, j)`. -/
theorem proj_eq (x0 : (⟨S50000x96, .f32⟩ : BufTy).Contents (Elt Ideal)) (x1 : (⟨S96x288, .f32⟩ : BufTy).Contents (Elt Ideal)) :
    val_main_v30 (F := Ideal) x0 x1 = Cert.Spec.proj x0 x1 :=
  funext fun i => (val_main_v30_apply x0 x1 i).trans (Finset.sum_congr rfl fun k _ => by rw [left30, right30])

/-- The hidden layer: a matrix product, the bias along the columns, and the maximum with zero. -/
theorem hidden_eq (x0 : (⟨S50000x96, .f32⟩ : BufTy).Contents (Elt Ideal)) (x1 : (⟨S96x288, .f32⟩ : BufTy).Contents (Elt Ideal))
    (x2 : (⟨S288x32, .f32⟩ : BufTy).Contents (Elt Ideal)) (x3 : (⟨S32, .f32⟩ : BufTy).Contents (Elt Ideal))
    (e : (⟨S2x800000, .i32⟩ : BufTy).Contents (Elt Ideal)) :
    val_main_v48 (F := Ideal) x0 x1 x2 x3 e = Cert.Spec.hidden (val_main_v43 (F := Ideal) x0 x1 e) x2 x3 := by
  funext i
  rw [val_main_v48_apply, val_main_v47_apply, val_main_v44_apply, val_main_v46_apply, val_main_v45_apply,
    val_main_call1_v0_apply, val_main_call1_cst_apply]
  show max ((∑ k : Fin 288, val_main_v43 (F := Ideal) x0 x1 e (lidx_main_v44 i k) * x2 (ridx_main_v44 i k))
      + x3 (idx_main_v45 (idx_main_v46 i))) (Ideal.ofBits .f32 0x00000000#32) = _
  rw [Ideal.ofBits_zero_f32]
  simp only [left44, right44, bias1]
  rfl

/-- The result: a second matrix product, its bias, and the residual. -/
theorem result_eq (x0 : (⟨S50000x96, .f32⟩ : BufTy).Contents (Elt Ideal)) (x1 : (⟨S96x288, .f32⟩ : BufTy).Contents (Elt Ideal))
    (x2 : (⟨S288x32, .f32⟩ : BufTy).Contents (Elt Ideal)) (x3 : (⟨S32, .f32⟩ : BufTy).Contents (Elt Ideal))
    (x4 : (⟨S32x96, .f32⟩ : BufTy).Contents (Elt Ideal)) (x5 : (⟨S96, .f32⟩ : BufTy).Contents (Elt Ideal))
    (e : (⟨S2x800000, .i32⟩ : BufTy).Contents (Elt Ideal)) :
    val_main_v53 (F := Ideal) x0 x1 x2 x3 x4 x5 e
      = Cert.Spec.upd (Cert.Spec.aggOf (Cert.Spec.proj x0 x1) (Cert.Spec.srcIds e) (Cert.Spec.dstIds e) (Cert.Spec.normOf e))
          x0 x2 x3 x4 x5 := by
  funext i
  rw [val_main_v53_apply, val_main_v52_apply, val_main_v49_apply, val_main_v51_apply, val_main_v50_apply, hidden_eq,
    agg_eq, proj_eq, src_eq, dst_eq, norm_eq]
  simp only [left49, right49, bias2]
  rfl

end Cert.ReferenceIdeal.RefValue

end
-- ==== Proof.lean ====
import proofs.«156920_j28183575396996_1_alg».proof.Defs
import proofs.«156920_j28183575396996_1_alg».proof.Proof.Gen.Kernel
import proofs.«156920_j28183575396996_1_alg».proof.Proof.Gen.Kernel.Frame
import proofs.«156920_j28183575396996_1_alg».proof.Proof.Gen.KernelIdeal
import proofs.«156920_j28183575396996_1_alg».proof.Proof.Gen.KernelIdeal.Frame
import proofs.«156920_j28183575396996_1_alg».proof.Proof.Gen.ReferenceIdeal
import proofs.«156920_j28183575396996_1_alg».proof.Proof.Gen.Pre_finite_inputs
import proofs.«156920_j28183575396996_1_alg».proof.Proof.KernelRun
import proofs.«156920_j28183575396996_1_alg».proof.Proof.KernelValue
import proofs.«156920_j28183575396996_1_alg».proof.Proof.RefValue
import Idealize.ShloMosaic.Adequacy
import Idealize.ShloMosaic.Init

/-!
# One graph-convolution step with a perceptron update: the kernel program against its reference

Both programs compute, for node features `x` and an edge list `e`,
`x + (max (A (x · W) · W1 + b1) 0 · W2 + b2)`, where `A` sums into every node the rows of its in-neighbours
(self loop included) scaled by the symmetric degree normalisation. The kernel program computes the
projection `x · W` and the update in two pipelined regions, 5000 rows at a time, narrowing the factors of each
matrix product to a shorter float format first; the reference computes them with whole-array operations.
Over the extended reals a format change is the identity and a matrix product into a zero accumulator is the
plain sum over the contracted axis, so the two programs' dense stages are the same functions entry by entry;
the message-passing chain `A` is the same composition of host operations in both and is never opened. No
law used here needs finiteness, so the precondition is not opened either.
-/

noncomputable section

namespace Cert.Proof

open Idealize.ShloMosaic Idealize.ShloMosaic.TcCoe Idealize.SL.Sem

/-- The kernel program at the word level terminates without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result's value dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Over the extended reals the two programs, run from memories that agree on the arguments, end with the same result
    array: both hold the update of the aggregated projection of the same arguments. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v44),
    Cert.KernelIdeal.RunP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  -- the reference's result is the specification of ITS arguments; the kernel program's, of its own; the arguments agree
  refine ((Cert.ReferenceIdeal.ReadP.val_main_v53_eq m' c).trans
    (Cert.ReferenceIdeal.RefValue.result_eq _ _ _ _ _ _ _)).trans ?_
  refine Eq.trans ?_ (Cert.KernelIdeal.KernelValue.result m ρ c).symm
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
